-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8 : Shape := ⟨2, ![4096, 8]⟩
abbrev S50257x128 : Shape := ⟨2, ![50257, 128]⟩
abbrev S128x50257 : Shape := ⟨2, ![128, 50257]⟩
abbrev S_ : Shape := ⟨0, ![]⟩

class Facts : Prop where
  bcast_S_S50257x128 : S_.BroadcastsInDim S50257x128 (![] : Fin 0 → Fin S50257x128.rank)
  reducesTo_S50257x128_S_d0_1 : S50257x128.ReducesTo [0, 1] S_
  h_S_ : 0 < S_.numel
  bcast_S_S128x50257 : S_.BroadcastsInDim S128x50257 (![] : Fin 0 → Fin S128x50257.rank)
  reducesTo_S128x50257_S_d0_1 : S128x50257.ReducesTo [0, 1] S_

variable [Facts]

def fn {F : FTy → Type} [FloatOps F] (main_arg0 : IVec S4096x8 32) (main_arg1 : FVec F S50257x128 .f32) (main_arg2 : FVec F S128x50257 .f32) : IVec S_ 1 :=
  let main_v0 : FVec F S50257x128 .f32 := Host.absf main_arg1
  let main_cst : FVec F S_ .f32 := constant S_ .f32 0x7F800000#32
  let main_v1 : FVec F S50257x128 .f32 := broadcastInDim S50257x128 ![] bcast_S_S50257x128 main_cst
  let main_v2 : IVec S50257x128 1 := cmpf .olt main_v0 main_v1
  let main_c : IVec S_ 1 := constantI S_ 1 1#1
  let main_v3 : IVec S_ 1 := (fun x v => Host.reduce IntOp.andi x v reducesTo_S50257x128_S_d0_1 h_S_) main_v2 main_c
  let main_v4 : FVec F S128x50257 .f32 := Host.absf main_arg2
  let main_cst_0 : FVec F S_ .f32 := constant S_ .f32 0x7F800000#32
  let main_v5 : FVec F S128x50257 .f32 := broadcastInDim S128x50257 ![] bcast_S_S128x50257 main_cst_0
  let main_v6 : IVec S128x50257 1 := cmpf .olt main_v4 main_v5
  let main_c_1 : IVec S_ 1 := constantI S_ 1 1#1
  let main_v7 : IVec S_ 1 := (fun x v => Host.reduce IntOp.andi x v reducesTo_S128x50257_S_d0_1 h_S_) main_v6 main_c_1
  let main_v8 : IVec S_ 1 := andi main_v3 main_v7
  main_v8
-- ==== Kernel.lean ====
abbrev S4096x8 : Shape := ⟨2, ![4096, 8]⟩
abbrev S50257x128 : Shape := ⟨2, ![50257, 128]⟩
abbrev S128x50257 : Shape := ⟨2, ![128, 50257]⟩
abbrev S_ : Shape := ⟨0, ![]⟩
abbrev S4096x8x1 : Shape := ⟨3, ![4096, 8, 1]⟩
abbrev S1 : Shape := ⟨1, ![1]⟩
abbrev S1x1x1 : Shape := ⟨3, ![1, 1, 1]⟩
abbrev S4096x8x128 : Shape := ⟨3, ![4096, 8, 128]⟩
abbrev S4096x128 : Shape := ⟨2, ![4096, 128]⟩
abbrev S4096x50257 : Shape := ⟨2, ![4096, 50257]⟩
abbrev S1024x128 : Shape := ⟨2, ![1024, 128]⟩
abbrev S128x2048 : Shape := ⟨2, ![128, 2048]⟩
abbrev S1024x2048 : Shape := ⟨2, ![1024, 2048]⟩

abbrev nBuf : Space → Nat
  | .hbm => 31
  | .vmem => 6
  | .smem => 0
  | _ => 0

abbrev bufTy : (tb : Table) → Fin (tcTables nBuf tb) → BufTy
  | .hbm, ⟨0, _⟩ => ⟨S4096x8, .i32⟩
  | .hbm, ⟨1, _⟩ => ⟨S50257x128, .f32⟩
  | .hbm, ⟨2, _⟩ => ⟨S128x50257, .f32⟩
  | .hbm, ⟨3, _⟩ => ⟨S_, .i32⟩
  | .hbm, ⟨4, _⟩ => ⟨S4096x8, .i32⟩
  | .hbm, ⟨5, _⟩ => ⟨S4096x8, .i1⟩
  | .hbm, ⟨6, _⟩ => ⟨S_, .i32⟩
  | .hbm, ⟨7, _⟩ => ⟨S4096x8, .i32⟩
  | .hbm, ⟨8, _⟩ => ⟨S4096x8, .i32⟩
  | .hbm, ⟨9, _⟩ => ⟨S4096x8, .i32⟩
  | .hbm, ⟨10, _⟩ => ⟨S4096x8x1, .i32⟩
  | .hbm, ⟨11, _⟩ => ⟨S1, .i32⟩
  | .hbm, ⟨12, _⟩ => ⟨S_, .i32⟩
  | .hbm, ⟨13, _⟩ => ⟨S4096x8x1, .i32⟩
  | .hbm, ⟨14, _⟩ => ⟨S4096x8x1, .i1⟩
  | .hbm, ⟨15, _⟩ => ⟨S1x1x1, .i32⟩
  | .hbm, ⟨16, _⟩ => ⟨S4096x8x1, .i32⟩
  | .hbm, ⟨17, _⟩ => ⟨S4096x8x1, .i1⟩
  | .hbm, ⟨18, _⟩ => ⟨S4096x8x1, .i1⟩
  | .hbm, ⟨19, _⟩ => ⟨S_, .i1⟩
  | .hbm, ⟨20, _⟩ => ⟨S4096x8, .i1⟩
  | .hbm, ⟨21, _⟩ => ⟨S4096x8x128, .f32⟩
  | .hbm, ⟨22, _⟩ => ⟨S4096x8x128, .i1⟩
  | .hbm, ⟨23, _⟩ => ⟨S_, .f32⟩
  | .hbm, ⟨24, _⟩ => ⟨S4096x8x128, .f32⟩
  | .hbm, ⟨25, _⟩ => ⟨S4096x8x128, .f32⟩
  | .hbm, ⟨26, _⟩ => ⟨S_, .f32⟩
  | .hbm, ⟨27, _⟩ => ⟨S4096x128, .f32⟩
  | .hbm, ⟨28, _⟩ => ⟨S4096x128, .bf16⟩
  | .hbm, ⟨29, _⟩ => ⟨S128x50257, .bf16⟩
  | .hbm, ⟨30, _⟩ => ⟨S4096x50257, .f32⟩
  | .local _ .vmem, ⟨0, _⟩ => ⟨S1024x128, .bf16⟩
  | .local _ .vmem, ⟨1, _⟩ => ⟨S1024x128, .bf16⟩
  | .local _ .vmem, ⟨2, _⟩ => ⟨S128x2048, .bf16⟩
  | .local _ .vmem, ⟨3, _⟩ => ⟨S128x2048, .bf16⟩
  | .local _ .vmem, ⟨4, _⟩ => ⟨S1024x2048, .f32⟩
  | .local _ .vmem, ⟨5, _⟩ => ⟨S1024x2048, .f32⟩
  | _, _ => ⟨S4096x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S4096x8 : S_.BroadcastsInDim S4096x8 (![] : Fin 0 → Fin S4096x8.rank)
  bcast_S4096x8_S4096x8x1_0_1 : S4096x8.BroadcastsInDim S4096x8x1 (![0, 1] : Fin 2 → Fin S4096x8x1.rank)
  bcast_S_S4096x8x1 : S_.BroadcastsInDim S4096x8x1 (![] : Fin 0 → Fin S4096x8x1.rank)
  bcast_S1_S1x1x1_2 : S1.BroadcastsInDim S1x1x1 (![2] : Fin 1 → Fin S1x1x1.rank)
  bcast_S1x1x1_S4096x8x1_0_1_2 : S1x1x1.BroadcastsInDim S4096x8x1 (![0, 1, 2] : Fin 3 → Fin S4096x8x1.rank)
  reducesTo_S4096x8x1_S4096x8_d2 : S4096x8x1.ReducesTo [2] S4096x8
  h_S_ : 0 < S_.numel
  bcast_S4096x8_S4096x8x128_0_1 : S4096x8.BroadcastsInDim S4096x8x128 (![0, 1] : Fin 2 → Fin S4096x8x128.rank)
  bcast_S_S4096x8x128 : S_.BroadcastsInDim S4096x8x128 (![] : Fin 0 → Fin S4096x8x128.rank)
  reducesTo_S4096x8x128_S4096x128_d1 : S4096x8x128.ReducesTo [1] S4096x128
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1024x2048_S1024x2048_0_0 : ∀ a, (![0, 0] : Fin 2 → Nat) a + S1024x2048.size a ≤ S1024x2048.size a
  h_S1024x2048 : 0 < S1024x2048.numel
  gather_S50257x128_S4096x8x1_S4096x8x128_2_0_n_n_0_2_1128_wf : GatherDims.WF S50257x128 S4096x8x1 S4096x8x128 [2] [0] [] [0] [] 2 ![1, 128]
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .bf16 = 32 ∨ (Rect.block (s := S4096x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S128x2048.size a < S128x50257.size a
  hwx0_1 : ∀ i : grid0.Coords, EltTy.bits .bf16 = 32 ∨ (Rect.unit (s := S128x50257) (fun a => cc0_transform_1 i a * S128x2048.size a) (fun a => (Pipeline.Clip.of (cc0_transform_1 i a) (S128x2048.size a) (S128x50257.size a)).extent (S128x2048.size a)) fun a => Pipeline.Clip.inb (Pipeline.Clip.ok_of (hstart0_1 i a))).WholeWords (EltTy.packing .bf16)
  hwxs0_1 : ∀ i : grid0.Coords, EltTy.bits .bf16 = 32 ∨ (Rect.unit (s := S128x2048) (fun _ => 0) (fun a => (Pipeline.Clip.of (cc0_transform_1 i a) (S128x2048.size a) (S128x50257.size a)).extent (S128x2048.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x2048.size a < S4096x50257.size a
  hwx0_2 : ∀ i : grid0.Coords, EltTy.bits .f32 = 32 ∨ (Rect.unit (s := S4096x50257) (fun a => cc0_transform_2 i a * S1024x2048.size a) (fun a => (Pipeline.Clip.of (cc0_transform_2 i a) (S1024x2048.size a) (S4096x50257.size a)).extent (S1024x2048.size a)) fun a => Pipeline.Clip.inb (Pipeline.Clip.ok_of (hstart0_2 i a))).WholeWords (EltTy.packing .f32)
  hwxs0_2 : ∀ i : grid0.Coords, EltTy.bits .f32 = 32 ∨ (Rect.unit (s := S1024x2048) (fun _ => 0) (fun a => (Pipeline.Clip.of (cc0_transform_2 i a) (S1024x2048.size a) (S4096x50257.size a)).extent (S1024x2048.size a)) fun a => (Nat.zero_add _).trans_le (Pipeline.Clip.extent_le (Pipeline.Clip.ok_of (hstart0_2 i a)))).WholeWords (EltTy.packing .f32)

variable [Facts₀]

def gather_S50257x128_S4096x8x1_S4096x8x128_2_0_n_n_0_2_1128 : GatherDims S50257x128 S4096x8x1 S4096x8x128 where
  offsetDims := [2]
  collapsedSliceDims := [0]
  operandBatchingDims := []
  startIndicesBatchingDims := []
  startIndexMap := [0]
  indexVectorDim := 2
  sliceSizes := ![1, 128]
  wf := gather_S50257x128_S4096x8x1_S4096x8x128_2_0_n_n_0_2_1128_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_v2) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v3) S128x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v4) S1024x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8 : Shape := ⟨2, ![4096, 8]⟩
abbrev S50257x128 : Shape := ⟨2, ![50257, 128]⟩
abbrev S128x50257 : Shape := ⟨2, ![128, 50257]⟩
abbrev S_ : Shape := ⟨0, ![]⟩
abbrev S4096x8x1 : Shape := ⟨3, ![4096, 8, 1]⟩
abbrev S1 : Shape := ⟨1, ![1]⟩
abbrev S1x1x1 : Shape := ⟨3, ![1, 1, 1]⟩
abbrev S4096x8x128 : Shape := ⟨3, ![4096, 8, 128]⟩
abbrev S4096x128 : Shape := ⟨2, ![4096, 128]⟩
abbrev S4096x50257 : Shape := ⟨2, ![4096, 50257]⟩

abbrev nBuf : Space → Nat
  | .hbm => 29
  | .vmem => 0
  | .smem => 0
  | _ => 0

abbrev bufTy : (tb : Table) → Fin (tcTables nBuf tb) → BufTy
  | .hbm, ⟨0, _⟩ => ⟨S4096x8, .i32⟩
  | .hbm, ⟨1, _⟩ => ⟨S50257x128, .f32⟩
  | .hbm, ⟨2, _⟩ => ⟨S128x50257, .f32⟩
  | .hbm, ⟨3, _⟩ => ⟨S_, .i32⟩
  | .hbm, ⟨4, _⟩ => ⟨S4096x8, .i32⟩
  | .hbm, ⟨5, _⟩ => ⟨S4096x8, .i1⟩
  | .hbm, ⟨6, _⟩ => ⟨S_, .i32⟩
  | .hbm, ⟨7, _⟩ => ⟨S4096x8, .i32⟩
  | .hbm, ⟨8, _⟩ => ⟨S4096x8, .i32⟩
  | .hbm, ⟨9, _⟩ => ⟨S4096x8, .i32⟩
  | .hbm, ⟨10, _⟩ => ⟨S4096x8x1, .i32⟩
  | .hbm, ⟨11, _⟩ => ⟨S1, .i32⟩
  | .hbm, ⟨12, _⟩ => ⟨S_, .i32⟩
  | .hbm, ⟨13, _⟩ => ⟨S4096x8x1, .i32⟩
  | .hbm, ⟨14, _⟩ => ⟨S4096x8x1, .i1⟩
  | .hbm, ⟨15, _⟩ => ⟨S1x1x1, .i32⟩
  | .hbm, ⟨16, _⟩ => ⟨S4096x8x1, .i32⟩
  | .hbm, ⟨17, _⟩ => ⟨S4096x8x1, .i1⟩
  | .hbm, ⟨18, _⟩ => ⟨S4096x8x1, .i1⟩
  | .hbm, ⟨19, _⟩ => ⟨S_, .i1⟩
  | .hbm, ⟨20, _⟩ => ⟨S4096x8, .i1⟩
  | .hbm, ⟨21, _⟩ => ⟨S4096x8x128, .f32⟩
  | .hbm, ⟨22, _⟩ => ⟨S4096x8x128, .i1⟩
  | .hbm, ⟨23, _⟩ => ⟨S_, .f32⟩
  | .hbm, ⟨24, _⟩ => ⟨S4096x8x128, .f32⟩
  | .hbm, ⟨25, _⟩ => ⟨S4096x8x128, .f32⟩
  | .hbm, ⟨26, _⟩ => ⟨S_, .f32⟩
  | .hbm, ⟨27, _⟩ => ⟨S4096x128, .f32⟩
  | .hbm, ⟨28, _⟩ => ⟨S4096x50257, .f32⟩
  | _, _ => ⟨S4096x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩

abbrev nD : Nat := 1
abbrev τ : Topo := Topo.v7x

variable {F : FTy → Type} [FloatOps F]

class Facts₀ : Prop where
  bcast_S_S4096x8 : S_.BroadcastsInDim S4096x8 (![] : Fin 0 → Fin S4096x8.rank)
  bcast_S4096x8_S4096x8x1_0_1 : S4096x8.BroadcastsInDim S4096x8x1 (![0, 1] : Fin 2 → Fin S4096x8x1.rank)
  bcast_S_S4096x8x1 : S_.BroadcastsInDim S4096x8x1 (![] : Fin 0 → Fin S4096x8x1.rank)
  bcast_S1_S1x1x1_2 : S1.BroadcastsInDim S1x1x1 (![2] : Fin 1 → Fin S1x1x1.rank)
  bcast_S1x1x1_S4096x8x1_0_1_2 : S1x1x1.BroadcastsInDim S4096x8x1 (![0, 1, 2] : Fin 3 → Fin S4096x8x1.rank)
  reducesTo_S4096x8x1_S4096x8_d2 : S4096x8x1.ReducesTo [2] S4096x8
  h_S_ : 0 < S_.numel
  bcast_S4096x8_S4096x8x128_0_1 : S4096x8.BroadcastsInDim S4096x8x128 (![0, 1] : Fin 2 → Fin S4096x8x128.rank)
  bcast_S_S4096x8x128 : S_.BroadcastsInDim S4096x8x128 (![] : Fin 0 → Fin S4096x8x128.rank)
  reducesTo_S4096x8x128_S4096x128_d1 : S4096x8x128.ReducesTo [1] S4096x128
  gather_S50257x128_S4096x8x1_S4096x8x128_2_0_n_n_0_2_1128_wf : GatherDims.WF S50257x128 S4096x8x1 S4096x8x128 [2] [0] [] [0] [] 2 ![1, 128]
  dot_S4096x128_S128x50257_S4096x50257_1_0_0_1_n_n_wf : DotDims.WF S4096x128 S128x50257 S4096x50257 [1] [0] [0] [1] [] []

variable [Facts₀]

def gather_S50257x128_S4096x8x1_S4096x8x128_2_0_n_n_0_2_1128 : GatherDims S50257x128 S4096x8x1 S4096x8x128 where
  offsetDims := [2]
  collapsedSliceDims := [0]
  operandBatchingDims := []
  startIndicesBatchingDims := []
  startIndexMap := [0]
  indexVectorDim := 2
  sliceSizes := ![1, 128]
  wf := gather_S50257x128_S4096x8x1_S4096x8x128_2_0_n_n_0_2_1128_wf
def dot_S4096x128_S128x50257_S4096x50257_1_0_0_1_n_n : DotDims S4096x128 S128x50257 S4096x50257 where
  lhsContracting := [1]
  rhsContracting := [0]
  lhsNonContracting := [0]
  rhsNonContracting := [1]
  lhsBatch := []
  rhsBatch := []
  wf := dot_S4096x128_S128x50257_S4096x50257_1_0_0_1_n_n_wf

class Facts : Prop extends Facts₀ where

variable [Facts]
-- ==== Proof.KernelBody.lean ====
/-
  The matmul kernel's body as one step of separation logic, at any float instance: handed the three staging
  buffers of a grid point at contents `X0` (a 1024×128 block of the left operand), `X1` (a 128×2048 block of the
  right operand) and `X2` (the 1024×2048 result block, whatever it held), the body loads the two operand blocks
  whole, multiplies them into a zero accumulator, loads the result block (a dead load) and stores the product over
  it whole. So the operand buffers end as they were and the result buffer ends holding the product
  `k0_pay1 X0 X1`; nothing else is touched. The statement is for every choice of the two slots of each window.
-/
import proofs.«106350_j27264452395031_1_alg».proof.Proof.Gen.Kernel.Launch
import proofs.«106350_j27264452395031_1_alg».proof.Proof.Gen.Kernel.Skeleton
import proofs.«106350_j27264452395031_1_alg».proof.Proof.Gen.Kernel.Points
import Idealize.ShloMosaic.Lib.Pipeline.Kit
import Idealize.ShloMosaic.Lib.Tactic

noncomputable section

namespace Cert.Kernel.Body

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel has no loop: no variants. -/
abbrev 𝒱₀ : Variants := Variants.none

/-! ## A whole memref accessed whole

A memref that is a whole buffer, accessed at zero offsets through the rectangle of its own sizes: a load reads what
the memref reads, and an unmasked store leaves it reading the payload. Stated for any whole memref, so that the body's
triple below is proved once for all staging buffers rather than buffer by buffer. -/

section Whole

variable {κ : Kind} {sp : Space} {s : Shape} {e : EltTy} {M : Memref sig κ sp s e} {Val : EltTy → Type}

/-- A load through a whole memref at zero offsets and the memref's own sizes reads what the memref reads. -/
theorem readAt_unit_zero_of_whole (h : M.IsWhole) {off : Fin s.rank → Nat} (hoff : off = fun _ => 0)
    (inb : ∀ a, off a + s.size a ≤ s.size a) (f : M.view.ty.Contents Val) :
    M.view.readAt Val (Rect.unit off s.size inb).toLoadRect f = M.view.read Val f := by
  obtain ⟨b, rfl, rfl, rfl, hm⟩ := h; cases hm
  exact Memref.readAt_unit_zero Val b hoff inb f

/-- An unmasked store through a whole memref at zero offsets and the memref's own sizes leaves it reading the
    payload, whatever it held. -/
theorem read_write_unit_zero_of_whole (h : M.IsWhole) {off : Fin s.rank → Nat} (hoff : off = fun _ => 0)
    (inb : ∀ a, off a + s.size a ≤ s.size a) (f : M.view.ty.Contents Val) (w : s.Idx → Val e) :
    M.view.read Val ((M.access (Rect.unit off s.size inb) : View sig κ _ _ _).write Val f w Finset.univ) = w := by
  obtain ⟨b, rfl, rfl, rfl, hm⟩ := h; cases hm
  exact Memref.write_access_unit_zero_univ Val b hoff inb f w

end Whole

/-! ## The body's triple -/

/-- The body on ANY three whole memrefs `M0`, `M1`, `M2` of the three block types, read at contents `X0`, `X1`,
    `X2`: the two operand loads read `X0` and `X1`, the load of `M2` is dead, and the unmasked whole store leaves
    `M2` reading the product `k0_pay1 X0 X1`; `M0` and `M1` are only read. -/
theorem triple (c : Dev nD) (E : Set ℕ) (i : grid0.Coords)
    (M0 : Memref sig .tc .vmem S1024x128 .bf16) (h0 : M0.IsWhole)
    (M1 : Memref sig .tc .vmem S128x2048 .bf16) (h1 : M1.IsWhole)
    (M2 : Memref sig .tc .vmem S1024x2048 .f32) (h2 : M2.IsWhole)
    (X0 : S1024x128.Idx → Elt F .bf16) (X1 : S128x2048.Idx → Elt F .bf16) (X2 : S1024x2048.Idx → Elt F .f32)
    (K : PUnit → sProp 𝕄) :
    iprop((owns (c : Thread nD τ) M0 fullShare X0 ∗ owns (c : Thread nD τ) M1 fullShare X1
            ∗ owns (c : Thread nD τ) M2 fullShare X2)
          ∗ (iprop(owns (c : Thread nD τ) M0 fullShare X0 ∗ owns (c : Thread nD τ) M1 fullShare X1
                  ∗ owns (c : Thread nD τ) M2 fullShare (k0_pay1 X0 X1)) -∗ K ⟨⟩))
      ⊢ wp frame (wpE (defs₀ (F := F)) 𝒱₀ c none) E (cc0__matmul_kernel i M0 h0 M1 h1 M2 h2) K := by
  -- every access is at offsets zero
  have hz : (![0, 0] : Fin 2 → Nat) = fun _ => 0 := funext fun a => by fin_cases a <;> rfl
  simp only [cc0__matmul_kernel_eq_skeleton]; unfold cc0__matmul_kernel_skel owns
  simp only [Prog.lift, Prog.bind_op, Prog.bind_ret]
  -- each memref's raw contents `fK`, reading `XK`
  iintro ⟨⟨⟨%f0, %hf0, H0⟩, ⟨%f1, %hf1, H1⟩, ⟨%f2, %hf2, H2⟩⟩, Hk⟩
  sl_steps
  iapply Hk
  -- the operand memrefs hold what they held
  isplitl [H0]
  · iexists f0; isplitr; · ipureintro; exact hf0
    iexact H0
  isplitl [H1]
  · iexists f1; isplitr; · ipureintro; exact hf1
    iexact H1
  -- the result memref holds what the store wrote over `f2`, which reads as the payload at what the two loads read:
  -- `X0` and `X1`
  · iexists _; isplitr
    swap
    · iexact H2
    ipureintro
    exact (read_write_unit_zero_of_whole h2 hz _ f2 _).trans
      (congrArg₂ k0_pay1 ((readAt_unit_zero_of_whole h0 hz _ f0).trans hf0) ((readAt_unit_zero_of_whole h1 hz _ f1).trans hf1))

/-- The body on staging buffers `s0`, `s1`, `s2` of the three windows: the operand buffers are read and left as
    they were, the result buffer ends holding the product of the two operand blocks. -/
theorem sound_body (c : Dev nD) (E : Set ℕ) (i : grid0.Coords) (s0 s1 s2 : Fin 2)
    (X0 : S1024x128.Idx → Elt F .bf16) (X1 : S128x2048.Idx → Elt F .bf16) (X2 : S1024x2048.Idx → Elt F .f32)
    (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) 𝒱₀ c none) E
          (cc0__matmul_kernel i (stage0_0 s0) (hstage0_0 s0) (stage0_1 s1) (hstage0_1 s1) (stage0_2 s2) (hstage0_2 s2)) K := by
  -- the staging memrefs are whole buffers, whichever slots they are
  exact triple c E i (stage0_0 s0) (hstage0_0 s0) (stage0_1 s1) (hstage0_1 s1) (stage0_2 s2) (hstage0_2 s2) X0 X1 X2 K

end Cert.Kernel.Body

end
-- ==== Proof.KernelFrame.lean ====
/-
  THE FRAME of the program: @main terminates without fault and leaves its three argument arrays — the token
  indices, the embedding table and the projection matrix — holding what they held.

  The three arguments are not arrays of the one pipeline: the host operations before it (the gather of the
  table's rows, the sum over the eight tokens, the two conversions to bf16) read them into fresh arrays, and the
  pipeline's windows are over those. So the frame needs nothing of what the pipeline computes: only that it runs to
  its end, and that the buffers that bypass it end as they entered. The proof data is therefore RELATIONAL with the
  relation that holds of everything: of what the body leaves in a staging buffer nothing is said. (Nothing exact could
  be said at the bit-exact instance: the product there is whatever the machine's matrix unit returns, and the clipped
  fetch of the right operand's last column block leaves words nothing names in the buffer's tail.) The body obligation
  is then the body's triple with each buffer handed back at "some contents".
-/
import proofs.«106350_j27264452395031_1_alg».proof.Proof.KernelBody
import proofs.«106350_j27264452395031_1_alg».proof.Proof.Gen.Kernel.Frame

noncomputable section

namespace Cert.Kernel.HandFrame

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The pipeline's proof data on core `c`: each window's array at what it holds when the region is entered; the
    relation between what the body finds in a staging buffer and what it leaves there the one that always holds; the
    invariant the class's (the scratch and the generator register at anything); full shares; nothing owed. -/
def rdat (c : Dev nD) : Pipeline.RDat τ (Elt F) Unit ℕ (UR sig nD τ) ℕ cfg0 c where
  A w := Gen.V m c (Pipeline.arrRef spec0 w)
  after _ _ _ _ := True
  Φ _ := Pipeline.ΦA spec0 c
  q _ := fullShare
  owed _ := 0

/-- Every array is held at the full share. -/
theorem share_full (c : Dev nD) (w : Fin cfg0.W) : (rdat m c).share w = fullShare := by
  unfold Pipeline.RDat.share; split <;> rfl

/-! ## The body obligation -/

/-- At every point, whatever the three current staging buffers hold (`Y`), the body runs and hands each back at some
    contents — the operand buffers at what they held, the result buffer at the product —, the invariant and the
    (empty) debt passed through. By the body's triple at the point's slots. -/
theorem body_obligation (c : Dev nD) : (rdat m c).BodyObligation (defs₀ (F := F)) Body.𝒱₀ () Set.univ := fun t Y _ => by
  rw [Gen.bigSep_W0, Gen.bigSep_W0]
  -- the invariant and the debt do not depend on the point
  rw [show (rdat m c).Φ t.succ = (rdat m c).Φ t.castSucc from rfl,
    show (rdat m c).owesAt () t.succ = (rdat m c).owesAt () t.castSucc from rfl]
  iintro ⟨HΦ, Ho, H0, H1, H2⟩
  iapply (Body.sound_body (F := F) c Set.univ (grid0.coords t) (cfg0.slots t 0) (cfg0.slots t 1) (cfg0.slots t 2)
    (Y 0) (Y 1) (Y 2) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  -- each buffer at some contents, of which nothing is asked
  isplitl [H0]
  · iexists Y 0; isplitr; · ipureintro; trivial
    iexact H0
  isplitl [H1]
  · iexists Y 1; isplitr; · ipureintro; trivial
    iexact H1
  · iexists k0_pay1 (Y 0) (Y 1); isplitr; · ipureintro; trivial
    iexact H2

/-! ## The run -/

/-- From any memory with zero counters, every weakly fair execution of @main terminates, and every buffer that
    bypasses the pipeline — unscoped and no window's array — ends holding what it held when the pipeline was entered
    (the post's second clause; its first, of the windows' arrays, says nothing the frame reads). -/
theorem run_frame : θ_run defs (onTc (τ := τ) (main (F := F))) (s₀ m ρ)
    (Pipeline.RDat.FramePost cfg0 (rdat m) (Gen.V m)) :=
  Pipeline.RDat.θ_run_frame cfgs 0 Gen.launch0 defs₀ Body.𝒱₀ (rdat m) m ρ main
    (hbody := body_obligation m)
    (hshare := share_full m) (howed := fun _ _ => rfl)
    (V := Gen.V m) (hmain := Gen.hmain m Body.𝒱₀)
    (hA := fun _ _ => rfl) (hΦ := fun _ _ => rfl)

/-! ## The frame -/

/-- An argument array `b` — unscoped, no window's array (`hs`, `ha`), written by no host operation before the
    region (`hV`) — holds after the run what it held at the launch. -/
theorem kept {r : PUnit × MemSt nD τ sig (Elt F)} (h : Pipeline.RDat.FramePost cfg0 (rdat m) (Gen.V m) r) (c : Dev nD)
    (b : Ref sig .tc) (hs : b.isScoped = false) (ha : ∀ w, (cfg0.spec w).arr.view.ref ≠ b)
    (hV : Gen.V m c b = m ((c.tc : Thread nD τ).loc b)) :
    r.2.mem ((c.tc : Thread nD τ).loc b) = m ((c.tc : Thread nD τ).loc b) :=
  ((h c).2 b (Pipeline.mem_restRefs_of b hs ha)).trans hV

/-- THE FRAME: @main terminates and leaves `main_arg0`, `main_arg1`, `main_arg2` unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨kept m h c main_arg0 (by decide) (by decide) (Gen.V_main_arg0 m c),
        kept m h c main_arg1 (by decide) (by decide) (Gen.V_main_arg1 m c),
        kept m h c main_arg2 (by decide) (by decide) (Gen.V_main_arg2 m c)⟩)
    (run_frame m ρ)

end Cert.Kernel.HandFrame

end
-- ==== Proof.KernelIdealBody.lean ====
/-
  The matmul kernel's body as one step of separation logic, at any float instance: handed the three staging
  buffers of a grid point at contents `X0` (a 1024×128 block of the left operand), `X1` (a 128×2048 block of the
  right operand) and `X2` (the 1024×2048 result block, whatever it held), the body loads the two operand blocks
  whole, multiplies them into a zero accumulator, loads the result block (a dead load) and stores the product over
  it whole. So the operand buffers end as they were and the result buffer ends holding the product
  `k0_pay1 X0 X1`; nothing else is touched. The statement is for every choice of the two slots of each window.
-/
import proofs.«106350_j27264452395031_1_alg».proof.Proof.Gen.KernelIdeal.Launch
import proofs.«106350_j27264452395031_1_alg».proof.Proof.Gen.KernelIdeal.Skeleton
import proofs.«106350_j27264452395031_1_alg».proof.Proof.Gen.KernelIdeal.Points
import Idealize.ShloMosaic.Lib.Pipeline.Kit
import Idealize.ShloMosaic.Lib.Tactic

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel has no loop: no variants. -/
abbrev 𝒱₀ : Variants := Variants.none

/-! ## A whole memref accessed whole

A memref that is a whole buffer, accessed at zero offsets through the rectangle of its own sizes: a load reads what
the memref reads, and an unmasked store leaves it reading the payload. Stated for any whole memref, so that the body's
triple below is proved once for all staging buffers rather than buffer by buffer. -/

section Whole

variable {κ : Kind} {sp : Space} {s : Shape} {e : EltTy} {M : Memref sig κ sp s e} {Val : EltTy → Type}

/-- A load through a whole memref at zero offsets and the memref's own sizes reads what the memref reads. -/
theorem readAt_unit_zero_of_whole (h : M.IsWhole) {off : Fin s.rank → Nat} (hoff : off = fun _ => 0)
    (inb : ∀ a, off a + s.size a ≤ s.size a) (f : M.view.ty.Contents Val) :
    M.view.readAt Val (Rect.unit off s.size inb).toLoadRect f = M.view.read Val f := by
  obtain ⟨b, rfl, rfl, rfl, hm⟩ := h; cases hm
  exact Memref.readAt_unit_zero Val b hoff inb f

/-- An unmasked store through a whole memref at zero offsets and the memref's own sizes leaves it reading the
    payload, whatever it held. -/
theorem read_write_unit_zero_of_whole (h : M.IsWhole) {off : Fin s.rank → Nat} (hoff : off = fun _ => 0)
    (inb : ∀ a, off a + s.size a ≤ s.size a) (f : M.view.ty.Contents Val) (w : s.Idx → Val e) :
    M.view.read Val ((M.access (Rect.unit off s.size inb) : View sig κ _ _ _).write Val f w Finset.univ) = w := by
  obtain ⟨b, rfl, rfl, rfl, hm⟩ := h; cases hm
  exact Memref.write_access_unit_zero_univ Val b hoff inb f w

end Whole

/-! ## The body's triple -/

/-- The body on ANY three whole memrefs `M0`, `M1`, `M2` of the three block types, read at contents `X0`, `X1`,
    `X2`: the two operand loads read `X0` and `X1`, the load of `M2` is dead, and the unmasked whole store leaves
    `M2` reading the product `k0_pay1 X0 X1`; `M0` and `M1` are only read. -/
theorem triple (c : Dev nD) (E : Set ℕ) (i : grid0.Coords)
    (M0 : Memref sig .tc .vmem S1024x128 .bf16) (h0 : M0.IsWhole)
    (M1 : Memref sig .tc .vmem S128x2048 .bf16) (h1 : M1.IsWhole)
    (M2 : Memref sig .tc .vmem S1024x2048 .f32) (h2 : M2.IsWhole)
    (X0 : S1024x128.Idx → Elt F .bf16) (X1 : S128x2048.Idx → Elt F .bf16) (X2 : S1024x2048.Idx → Elt F .f32)
    (K : PUnit → sProp 𝕄) :
    iprop((owns (c : Thread nD τ) M0 fullShare X0 ∗ owns (c : Thread nD τ) M1 fullShare X1
            ∗ owns (c : Thread nD τ) M2 fullShare X2)
          ∗ (iprop(owns (c : Thread nD τ) M0 fullShare X0 ∗ owns (c : Thread nD τ) M1 fullShare X1
                  ∗ owns (c : Thread nD τ) M2 fullShare (k0_pay1 X0 X1)) -∗ K ⟨⟩))
      ⊢ wp frame (wpE (defs₀ (F := F)) 𝒱₀ c none) E (cc0__matmul_kernel i M0 h0 M1 h1 M2 h2) K := by
  -- every access is at offsets zero
  have hz : (![0, 0] : Fin 2 → Nat) = fun _ => 0 := funext fun a => by fin_cases a <;> rfl
  simp only [cc0__matmul_kernel_eq_skeleton]; unfold cc0__matmul_kernel_skel owns
  simp only [Prog.lift, Prog.bind_op, Prog.bind_ret]
  -- each memref's raw contents `fK`, reading `XK`
  iintro ⟨⟨⟨%f0, %hf0, H0⟩, ⟨%f1, %hf1, H1⟩, ⟨%f2, %hf2, H2⟩⟩, Hk⟩
  sl_steps
  iapply Hk
  -- the operand memrefs hold what they held
  isplitl [H0]
  · iexists f0; isplitr; · ipureintro; exact hf0
    iexact H0
  isplitl [H1]
  · iexists f1; isplitr; · ipureintro; exact hf1
    iexact H1
  -- the result memref holds what the store wrote over `f2`, which reads as the payload at what the two loads read:
  -- `X0` and `X1`
  · iexists _; isplitr
    swap
    · iexact H2
    ipureintro
    exact (read_write_unit_zero_of_whole h2 hz _ f2 _).trans
      (congrArg₂ k0_pay1 ((readAt_unit_zero_of_whole h0 hz _ f0).trans hf0) ((readAt_unit_zero_of_whole h1 hz _ f1).trans hf1))

/-- The body on staging buffers `s0`, `s1`, `s2` of the three windows: the operand buffers are read and left as
    they were, the result buffer ends holding the product of the two operand blocks. -/
theorem sound_body (c : Dev nD) (E : Set ℕ) (i : grid0.Coords) (s0 s1 s2 : Fin 2)
    (X0 : S1024x128.Idx → Elt F .bf16) (X1 : S128x2048.Idx → Elt F .bf16) (X2 : S1024x2048.Idx → Elt F .f32)
    (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) 𝒱₀ c none) E
          (cc0__matmul_kernel i (stage0_0 s0) (hstage0_0 s0) (stage0_1 s1) (hstage0_1 s1) (stage0_2 s2) (hstage0_2 s2)) K := by
  -- the staging memrefs are whole buffers, whichever slots they are
  exact triple c E i (stage0_0 s0) (hstage0_0 s0) (stage0_1 s1) (hstage0_1 s1) (stage0_2 s2) (hstage0_2 s2) X0 X1 X2 K

end Cert.KernelIdeal.Body

end
-- ==== Proof.KernelIdealFrame.lean ====
/-
  THE FRAME of the program: @main terminates without fault and leaves its three argument arrays — the token
  indices, the embedding table and the projection matrix — holding what they held.

  The three arguments are not arrays of the one pipeline: the host operations before it (the gather of the
  table's rows, the sum over the eight tokens, the two conversions to bf16) read them into fresh arrays, and the
  pipeline's windows are over those. So the frame needs nothing of what the pipeline computes: only that it runs to
  its end, and that the buffers that bypass it end as they entered. The proof data is therefore RELATIONAL with the
  relation that holds of everything: of what the body leaves in a staging buffer nothing is said. (Nothing exact could
  be said at the bit-exact instance: the product there is whatever the machine's matrix unit returns, and the clipped
  fetch of the right operand's last column block leaves words nothing names in the buffer's tail.) The body obligation
  is then the body's triple with each buffer handed back at "some contents".
-/
import proofs.«106350_j27264452395031_1_alg».proof.Proof.KernelIdealBody
import proofs.«106350_j27264452395031_1_alg».proof.Proof.Gen.KernelIdeal.Frame

noncomputable section

namespace Cert.KernelIdeal.HandFrame

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The pipeline's proof data on core `c`: each window's array at what it holds when the region is entered; the
    relation between what the body finds in a staging buffer and what it leaves there the one that always holds; the
    invariant the class's (the scratch and the generator register at anything); full shares; nothing owed. -/
def rdat (c : Dev nD) : Pipeline.RDat τ (Elt F) Unit ℕ (UR sig nD τ) ℕ cfg0 c where
  A w := Gen.V m c (Pipeline.arrRef spec0 w)
  after _ _ _ _ := True
  Φ _ := Pipeline.ΦA spec0 c
  q _ := fullShare
  owed _ := 0

/-- Every array is held at the full share. -/
theorem share_full (c : Dev nD) (w : Fin cfg0.W) : (rdat m c).share w = fullShare := by
  unfold Pipeline.RDat.share; split <;> rfl

/-! ## The body obligation -/

/-- At every point, whatever the three current staging buffers hold (`Y`), the body runs and hands each back at some
    contents — the operand buffers at what they held, the result buffer at the product —, the invariant and the
    (empty) debt passed through. By the body's triple at the point's slots. -/
theorem body_obligation (c : Dev nD) : (rdat m c).BodyObligation (defs₀ (F := F)) Body.𝒱₀ () Set.univ := fun t Y _ => by
  rw [Gen.bigSep_W0, Gen.bigSep_W0]
  -- the invariant and the debt do not depend on the point
  rw [show (rdat m c).Φ t.succ = (rdat m c).Φ t.castSucc from rfl,
    show (rdat m c).owesAt () t.succ = (rdat m c).owesAt () t.castSucc from rfl]
  iintro ⟨HΦ, Ho, H0, H1, H2⟩
  iapply (Body.sound_body (F := F) c Set.univ (grid0.coords t) (cfg0.slots t 0) (cfg0.slots t 1) (cfg0.slots t 2)
    (Y 0) (Y 1) (Y 2) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  -- each buffer at some contents, of which nothing is asked
  isplitl [H0]
  · iexists Y 0; isplitr; · ipureintro; trivial
    iexact H0
  isplitl [H1]
  · iexists Y 1; isplitr; · ipureintro; trivial
    iexact H1
  · iexists k0_pay1 (Y 0) (Y 1); isplitr; · ipureintro; trivial
    iexact H2

/-! ## The run -/

/-- From any memory with zero counters, every weakly fair execution of @main terminates, and every buffer that
    bypasses the pipeline — unscoped and no window's array — ends holding what it held when the pipeline was entered
    (the post's second clause; its first, of the windows' arrays, says nothing the frame reads). -/
theorem run_frame : θ_run defs (onTc (τ := τ) (main (F := F))) (s₀ m ρ)
    (Pipeline.RDat.FramePost cfg0 (rdat m) (Gen.V m)) :=
  Pipeline.RDat.θ_run_frame cfgs 0 Gen.launch0 defs₀ Body.𝒱₀ (rdat m) m ρ main
    (hbody := body_obligation m)
    (hshare := share_full m) (howed := fun _ _ => rfl)
    (V := Gen.V m) (hmain := Gen.hmain m Body.𝒱₀)
    (hA := fun _ _ => rfl) (hΦ := fun _ _ => rfl)

/-! ## The frame -/

/-- An argument array `b` — unscoped, no window's array (`hs`, `ha`), written by no host operation before the
    region (`hV`) — holds after the run what it held at the launch. -/
theorem kept {r : PUnit × MemSt nD τ sig (Elt F)} (h : Pipeline.RDat.FramePost cfg0 (rdat m) (Gen.V m) r) (c : Dev nD)
    (b : Ref sig .tc) (hs : b.isScoped = false) (ha : ∀ w, (cfg0.spec w).arr.view.ref ≠ b)
    (hV : Gen.V m c b = m ((c.tc : Thread nD τ).loc b)) :
    r.2.mem ((c.tc : Thread nD τ).loc b) = m ((c.tc : Thread nD τ).loc b) :=
  ((h c).2 b (Pipeline.mem_restRefs_of b hs ha)).trans hV

/-- THE FRAME: @main terminates and leaves `main_arg0`, `main_arg1`, `main_arg2` unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨kept m h c main_arg0 (by decide) (by decide) (Gen.V_main_arg0 m c),
        kept m h c main_arg1 (by decide) (by decide) (Gen.V_main_arg1 m c),
        kept m h c main_arg2 (by decide) (by decide) (Gen.V_main_arg2 m c)⟩)
    (run_frame m ρ)

end Cert.KernelIdeal.HandFrame

end
-- ==== Proof.KernelValue.lean ====
/-
  What the kernel's result array holds after the run, at the ideal instance (floats are extended reals, every
  operation exact): the proof data of the one pipeline, stated exactly.

  The grid has 4 × 25 points. At point `t` the left window's staging buffer holds a 1024 × 128 block of the
  (converted) embedding sums, the right window's a 128 × 2048 block of the (converted) projection matrix, and the
  body stores their product into the result window's 1024 × 2048 buffer. The projection matrix has 50257 columns,
  which 2048 does not divide: the last column block overhangs the array, its fetch fills only the buffer's first
  1105 columns, and the remaining columns hold values nothing names. A product's column depends only on the same
  column of the right operand, so the unnamed columns reach only result columns that the clipped write-back never
  moves. The proof data therefore names the right buffer as its block padded with zeros, the result buffer as the
  product of the two named blocks, and both windows are described on their moved part only.
-/
import proofs.«106350_j27264452395031_1_alg».proof.Proof.KernelIdealBody
import proofs.«106350_j27264452395031_1_alg».proof.Proof.Gen.KernelIdeal.Frame
import Idealize.ShloMosaic.Lib.Pipeline.Frame
import Idealize.ShloMosaic.Lib.Pipeline.Value
import Idealize.ShloMosaic.PureOps.Ideal.Laws
import Idealize.ShloMosaic.Lib.ValueIdx

set_option maxRecDepth 16384

noncomputable section

namespace Cert.KernelIdeal.Val

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The dot's operand indices, axis by axis -/

/-- The body's product contracts the left operand's columns with the right operand's rows. -/
abbrev dotK : DotDims S1024x128 S128x2048 S1024x2048 := dot_S1024x128_S128x2048_S1024x2048_1_0_0_1_n_n

/-- The left operand is read in the result's row … -/
theorem lhs_0 (i : S1024x2048.Idx) (q : dotK.contr.Idx) : (dotK.lhsIdx i q 0).val = (i 0).val := by
  unfold DotDims.lhsIdx
  rw [dif_neg (show ¬(0 : Fin S1024x128.rank) ∈ dotK.lhsBatch by decide), dif_pos (show (0 : Fin S1024x128.rank) ∈ dotK.lhsNonContracting by decide)]
  rfl
/-- … at the contraction position; -/
theorem lhs_1 (i : S1024x2048.Idx) (q : dotK.contr.Idx) : (dotK.lhsIdx i q 1).val = (q ⟨0, by decide⟩).val :=
  dotK.lhsIdx_val_of_single rfl i q
/-- the right operand at the contraction position … -/
theorem rhs_0 (i : S1024x2048.Idx) (q : dotK.contr.Idx) : (dotK.rhsIdx i q 0).val = (q ⟨0, by decide⟩).val :=
  dotK.rhsIdx_val_of_single rfl i q
/-- … in the result's column. -/
theorem rhs_1 (i : S1024x2048.Idx) (q : dotK.contr.Idx) : (dotK.rhsIdx i q 1).val = (i 1).val := by
  unfold DotDims.rhsIdx
  rw [dif_neg (show ¬(1 : Fin S128x2048.rank) ∈ dotK.rhsBatch by decide), dif_pos (show (1 : Fin S128x2048.rank) ∈ dotK.rhsNonContracting by decide)]
  rfl

/-- The body's product at an entry: the sum over the 128 contraction positions of the left block's row entry times
    the right block's column entry. -/
theorem pay_apply (x0 : FVec Ideal S1024x128 .bf16) (x1 : FVec Ideal S128x2048 .bf16) (i : S1024x2048.Idx) :
    k0_pay1 (F := Ideal) x0 x1 i = ∑ k : dotK.contr.Idx, x0 (dotK.lhsIdx i k) * x1 (dotK.rhsIdx i k) := by
  unfold k0_pay1
  rw [shapeCast_self, shapeCast_self]
  exact Ideal.matmul_constant_zero_apply dotK none x0 x1 i

/-! ## The proof data -/

/-- The left window's block at point `t`: 1024 rows of the embedding sums, all 128 columns. -/
abbrev lblk (c : Dev nD) (t : Fin cfg0.N) : S1024x128.Idx → Elt Ideal .bf16 := iblk m c 0 t

/-- The right window's block at point `t` as the fetch reads it: the part of the 2048 columns inside the array. -/
abbrev rpart (c : Dev nD) (t : Fin cfg0.N) : (win0_1.xblock (grid0.coords t)).Idx → Elt Ideal .bf16 := iblk m c 1 t

/-- That block padded with zeros to the buffer's 128 × 2048. -/
def rblk (c : Dev nD) (t : Fin cfg0.N) : S128x2048.Idx → Elt Ideal .bf16 :=
  win0_1.fill (grid0.coords t) (fun _ => (0 : EReal)) (rpart m c t)

/-- The arrays as the region finds them; after the body the left buffer holds its block, the right buffer its
    padded block, the result buffer their product; the region invariant is the class's, nothing is owed. -/
def dats (_ : Fin 1) (c : Dev nD) : Dat τ (Elt Ideal) Unit ℕ (UR sig nD τ) ℕ cfg0 c where
  A w := V m c (Pipeline.arrRef spec0 w)
  after w t := match w with
    | ⟨0, _⟩ => lblk m c t
    | ⟨1, _⟩ => rblk m c t
    | ⟨2, _⟩ => k0_pay1 (F := Ideal) (lblk m c t) (rblk m c t)
  Φ _ := Pipeline.ΦA spec0 c
  q _ := fullShare
  owed _ := 0

/-! ## What the body finds -/

/-- The left buffer holds its block at every point, fetched there or kept from the point before. -/
theorem before_0 (c : Dev nD) (t : Fin cfg0.N) (d) : (dats m 0 c).before 0 t d = lblk m c t :=
  before0_0_of m (dats m 0 c) rfl (fun _ => by dsimp only [dats]) t d

/-- The right buffer is fetched at every point: its block on the moved part, `d` past the array's end. -/
theorem before_1 (c : Dev nD) (t : Fin cfg0.N) (d) :
    (dats m 0 c).before 1 t d = win0_1.fill (grid0.coords t) d (rpart m c t) := by
  rw [Pipeline.Dat.before_fetched _ 1 t (fetch0_1 t)]; rfl

/-- The result buffer is written back at every point: the body finds anything there. -/
theorem before_2 (c : Dev nD) (t : Fin cfg0.N) (d) : (dats m 0 c).before 2 t d = d :=
  Pipeline.Dat.before_out_reset _ 2 rfl t
    (by by_cases h : t.val = 0
        · exact .inl h
        · exact .inr ⟨h, flush0_2 _⟩) d

/-! ## The unnamed columns do not reach the moved part of the product -/

/-- The right window moves all 128 rows, and the same columns the result window moves. -/
theorem xsize_facts : ∀ t : Fin cfg0.N, win0_1.xsize (grid0.coords t) (0 : Fin 2) = 128
    ∧ win0_1.xsize (grid0.coords t) (1 : Fin 2) = win0_2.xsize (grid0.coords t) (1 : Fin 2) :=
  (by decide +kernel : ∀ t : Fin grid0.N, _)

/-- Two paddings of one block agree wherever the transfer moves. -/
theorem fill_eq_of_moved {α : Type} (i : grid0.Coords) (d d' : S128x2048.Idx → α) (g : (win0_1.xblock i).Idx → α)
    (j : S128x2048.Idx) (h : win0_1.moved i j = true) : win0_1.fill i d g j = win0_1.fill i d' g j := by
  unfold Pipeline.Window.fill; rw [dif_pos h, dif_pos h]

/-- The moved part of the product of a block with a padded block does not depend on the padding: entry (r, q) reads
    column q of the right operand only, and a moved column q is a moved column of the right window. -/
theorem cut_pay_congr (t : Fin cfg0.N) (x0 : FVec Ideal S1024x128 .bf16) (d d' : S128x2048.Idx → Elt Ideal .bf16)
    (g : (win0_1.xblock (grid0.coords t)).Idx → Elt Ideal .bf16) :
    win0_2.cut (grid0.coords t) (k0_pay1 (F := Ideal) x0 (win0_1.fill (grid0.coords t) d g))
      = win0_2.cut (grid0.coords t) (k0_pay1 (F := Ideal) x0 (win0_1.fill (grid0.coords t) d' g)) := by
  funext y
  show k0_pay1 (F := Ideal) x0 _ (win0_2.xinj (grid0.coords t) y) = k0_pay1 (F := Ideal) x0 _ (win0_2.xinj (grid0.coords t) y)
  rw [pay_apply, pay_apply]
  refine Finset.sum_congr rfl fun k _ => ?_
  congr 1
  apply fill_eq_of_moved
  rw [Pipeline.Window.moved_iff]
  obtain ⟨e0, e1⟩ := xsize_facts t
  intro a
  match a with
  | ⟨0, _⟩ =>
    show (dotK.rhsIdx (win0_2.xinj (grid0.coords t) y) k 0).val < win0_1.xsize (grid0.coords t) (0 : Fin 2)
    rw [e0]; exact (dotK.rhsIdx (win0_2.xinj (grid0.coords t) y) k 0).isLt
  | ⟨1, _⟩ =>
    show (dotK.rhsIdx (win0_2.xinj (grid0.coords t) y) k 1).val < win0_1.xsize (grid0.coords t) (1 : Fin 2)
    rw [rhs_1, e1]; exact (y 1).isLt

/-! ## The body obligation -/

/-- At every point the body, handed the three buffers at what they then hold, leaves the left buffer at its block,
    the right buffer at its block on the moved part, and the result buffer at the product on the moved part. -/
theorem body_obligation (c : Dev nD) : BodyObligationLoose (dats m 0 c) (defs₀ (F := Ideal)) Body.𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (Body.sound_body (F := Ideal) c Set.univ (grid0.coords t) (cfg0.slots t 0) (cfg0.slots t 1) (cfg0.slots t 2)
    (lblk m c t) (win0_1.fill (grid0.coords t) d1 (rpart m c t)) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have h1 : win0_1.cut (grid0.coords t) (rblk m c t) = rpart m c t := win0_1.cut_fill _ _ _
  have h2 : win0_2.fill (grid0.coords t) (k0_pay1 (F := Ideal) (lblk m c t) (win0_1.fill (grid0.coords t) d1 (rpart m c t)))
        (win0_2.cut (grid0.coords t) (k0_pay1 (F := Ideal) (lblk m c t) (rblk m c t)))
      = k0_pay1 (F := Ideal) (lblk m c t) (win0_1.fill (grid0.coords t) d1 (rpart m c t)) :=
    win0_2.fill_congr_cut _ (cut_pay_congr t (lblk m c t) d1 (fun _ => (0 : EReal)) (rpart m c t))
  isplitl [H0]
  · iexact H0
  isplitl [H1]
  · iexists d1
    change _ ⊢ owns (c : Thread nD τ) (stage0_1 (cfg0.slots t 1)) fullShare (win0_1.fill (grid0.coords t) d1 (win0_1.cut (grid0.coords t) (rblk m c t)))
    rw [h1]; try iexact H1
  · iexists k0_pay1 (F := Ideal) (lblk m c t) (win0_1.fill (grid0.coords t) d1 (rpart m c t))
    change _ ⊢ owns (c : Thread nD τ) (stage0_2 (cfg0.slots t 2)) fullShare (win0_2.fill (α := Elt Ideal .f32) (grid0.coords t) (k0_pay1 (F := Ideal) (lblk m c t) (win0_1.fill (grid0.coords t) d1 (rpart m c t))) (win0_2.cut (α := Elt Ideal .f32) (grid0.coords t) (k0_pay1 (F := Ideal) (lblk m c t) (rblk m c t))))
    rw [h2]; try iexact H2

/-! ## The run -/

/-- From any memory with zero counters every weakly fair execution of @main terminates, the pipeline's arrays end
    at what the write-backs of the proof data leave, and every other unscoped buffer as the region found it. -/
theorem run_main : θ_run defs (onTc (τ := τ) (main (F := Ideal))) (s₀ m ρ) (Pipeline.FramePost cfgs (dats m) 0 (V m)) :=
  Pipeline.θ_run_frame cfgs (dats m) 0 launch0 defs₀ Body.𝒱₀ m ρ main
    (hbody := body_obligation m)
    (hshare := fun c => (dats m 0 c).share_full fun _ => rfl) (howed := fun _ _ => rfl)
    (V := V m) (hmain := hmain m Body.𝒱₀) (hA := fun _ _ => rfl) (hΦ := fun _ _ => rfl)

end Cert.KernelIdeal.Val

end
-- ==== Proof.KernelFinal.lean ====
/-
  From blocks to the array: after the run the kernel's result array is the matrix product of the two arrays the
  region finds — entry (r, q) the sum over the 128 contraction positions k of left(r, k) · right(k, q).

  Point `t` of the 4 × 25 grid writes back the moved part of the product of its two blocks. The left block is rows
  1024·i₀ … of the left array (all 128 columns), the right block is columns 2048·i₁ … of the right array (all 128
  rows), and the result block sits at rows 1024·i₀ …, columns 2048·i₁ … of the result: so entry (y₀, y₁) of the
  written part is entry (1024·i₀ + y₀, 2048·i₁ + y₁) of the whole product. The blocks cover the result array: row r
  is in row block r / 1024, column q in column block q / 2048, whose moved columns end at min(2048·(i₁+1), 50257).
-/
import proofs.«106350_j27264452395031_1_alg».proof.Proof.KernelValue

set_option maxRecDepth 16384

noncomputable section

namespace Cert.KernelIdeal.Val

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable (m : (ℓ : Loc nD τ sig) → Buf (Elt Ideal) ℓ) (ρ : Dev nD → PrngReg)

/-- The product of a 4096 × 128 array and a 128 × 50257 array, entry by entry. -/
def prod (L : S4096x128.Idx → Elt Ideal .bf16) (R : S128x50257.Idx → Elt Ideal .bf16) : S4096x50257.Idx → Elt Ideal .f32 :=
  fun i => ∑ k : Fin 128, L (ix2 ⟨(i 0).val, idx2_lt0 i⟩ k) * R (ix2 k ⟨(i 1).val, idx2_lt1 i⟩)

/-- The index maps over the grid: the left window moves with the result's row block and stays at column block 0, the
    right window stays at row block 0 and moves with the result's column block; the result's row blocks are whole and
    its column blocks end at the array's end. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.xsize (grid0.coords t) (0 : Fin 2) = 1024
    ∧ win0_2.index t (1 : Fin 2) * 2048 + win0_2.xsize (grid0.coords t) (1 : Fin 2) = min ((win0_2.index t (1 : Fin 2) + 1) * 2048) 50257 :=
  (by decide +kernel : ∀ t : Fin grid0.N, _)

/-- Every block index of the 4 × 25 box is some point's. -/
theorem idx_onto : ∀ (q0 : Fin 4) (q1 : Fin 25), ∃ t : Fin cfg0.N, win0_2.index t = ![q0.val, q1.val] :=
  (by decide +kernel : ∀ (q0 : Fin 4) (q1 : Fin 25), ∃ t : Fin grid0.N, win0_2.index t = ![q0.val, q1.val])

/-- A padded block at a moved index is the block there. -/
theorem fill_apply_of_moved {α : Type} (i : grid0.Coords) (d : S128x2048.Idx → α) (g : (win0_1.xblock i).Idx → α)
    (j : S128x2048.Idx) (h : win0_1.moved i j = true) :
    win0_1.fill i d g j = g fun a => ⟨(j a).val, (win0_1.moved_iff i j).mp h a⟩ := by
  unfold Pipeline.Window.fill; rw [dif_pos h]

/-- WHAT POINT `t` WRITES BACK is its block of the whole product. -/
theorem flushed_eq (c : Dev nD) (t : Fin cfg0.N) :
    (dats m 0 c).flushed 2 t = ((cfg0.win 2).blk t).view.read (Elt Ideal) (prod (V m c main_v2) (V m c main_v3)) := by
  show (cfg0.win 2).cut (grid0.coords t) ((dats m 0 c).after 2 t) = _
  dsimp only [dats]
  obtain ⟨e00, e01, e10, e11, x0, x1⟩ := idx_facts t
  obtain ⟨s0, s1⟩ := xsize_facts t
  funext y
  show k0_pay1 (F := Ideal) (lblk m c t) (rblk m c t) (win0_2.xinj (grid0.coords t) y)
      = prod (V m c main_v2) (V m c main_v3) (((cfg0.win 2).blk t).view.emb y)
  rw [pay_apply, ← Equiv.sum_comp (contrEquiv1 dotK 128 rfl rfl).symm]
  unfold prod
  refine Finset.sum_congr rfl fun k _ => ?_
  have hk := contrEquiv1_symm_val dotK 128 rfl rfl k
  have hmoved : win0_1.moved (grid0.coords t) (dotK.rhsIdx (win0_2.xinj (grid0.coords t) y) ((contrEquiv1 dotK 128 rfl rfl).symm k)) = true := by
    rw [Pipeline.Window.moved_iff]
    intro a
    match a with
    | ⟨0, _⟩ =>
      show (dotK.rhsIdx (win0_2.xinj (grid0.coords t) y) ((contrEquiv1 dotK 128 rfl rfl).symm k) 0).val < win0_1.xsize (grid0.coords t) (0 : Fin 2)
      rw [s0]; exact (dotK.rhsIdx (win0_2.xinj (grid0.coords t) y) ((contrEquiv1 dotK 128 rfl rfl).symm k) 0).isLt
    | ⟨1, _⟩ =>
      show (dotK.rhsIdx (win0_2.xinj (grid0.coords t) y) ((contrEquiv1 dotK 128 rfl rfl).symm k) 1).val < win0_1.xsize (grid0.coords t) (1 : Fin 2)
      rw [rhs_1, s1]; exact (y 1).isLt
  -- the left block's entry (y₀, k) is the left array's entry (1024·i₀ + y₀, k)
  have hL : ((cfg0.win 0).blk t).view.emb (dotK.lhsIdx (win0_2.xinj (grid0.coords t) y) ((contrEquiv1 dotK 128 rfl rfl).symm k))
      = ix2 ⟨((((cfg0.win 2).blk t).view.emb y) 0).val, idx2_lt0 _⟩ k := by
    funext a; apply Fin.ext
    match a with
    | ⟨0, _⟩ =>
      show win0_0.index t (0 : Fin 2) * 1024 + 1 * (dotK.lhsIdx (win0_2.xinj (grid0.coords t) y) ((contrEquiv1 dotK 128 rfl rfl).symm k) 0).val
        = win0_2.index t (0 : Fin 2) * 1024 + 1 * (y 0).val
      rw [lhs_0, e00]
    | ⟨1, _⟩ =>
      show win0_0.index t (1 : Fin 2) * 128 + 1 * (dotK.lhsIdx (win0_2.xinj (grid0.coords t) y) ((contrEquiv1 dotK 128 rfl rfl).symm k) 1).val = k.val
      rw [lhs_1, hk, e01]; omega
  -- the right block's moved entry (k, y₁) is the right array's entry (k, 2048·i₁ + y₁)
  have hR : ((cfg0.win 1).blk t).view.emb (fun a => ⟨(dotK.rhsIdx (win0_2.xinj (grid0.coords t) y) ((contrEquiv1 dotK 128 rfl rfl).symm k) a).val,
        (win0_1.moved_iff (grid0.coords t) _).mp hmoved a⟩)
      = ix2 k ⟨((((cfg0.win 2).blk t).view.emb y) 1).val, idx2_lt1 _⟩ := by
    funext a; apply Fin.ext
    match a with
    | ⟨0, _⟩ =>
      show win0_1.index t (0 : Fin 2) * 128 + 1 * (dotK.rhsIdx (win0_2.xinj (grid0.coords t) y) ((contrEquiv1 dotK 128 rfl rfl).symm k) 0).val = k.val
      rw [rhs_0, hk, e10]; omega
    | ⟨1, _⟩ =>
      show win0_1.index t (1 : Fin 2) * 2048 + 1 * (dotK.rhsIdx (win0_2.xinj (grid0.coords t) y) ((contrEquiv1 dotK 128 rfl rfl).symm k) 1).val
        = win0_2.index t (1 : Fin 2) * 2048 + 1 * (y 1).val
      rw [rhs_1, e11]
  have hr : rblk m c t (dotK.rhsIdx (win0_2.xinj (grid0.coords t) y) ((contrEquiv1 dotK 128 rfl rfl).symm k))
      = V m c main_v3 (ix2 k ⟨((((cfg0.win 2).blk t).view.emb y) 1).val, idx2_lt1 _⟩) := by
    unfold rblk
    rw [fill_apply_of_moved _ _ _ _ hmoved, ← hR]
    rfl
  rw [hr, ← hL]
  rfl

/-- An index of the result array is in point `t`'s written part iff each coordinate is in the part's range. -/
theorem mem_blk (t : Fin cfg0.N) (i : S4096x50257.Idx) :
    i ∈ ((cfg0.win 2).blk t).view.set ↔ ∀ a : Fin 2, win0_2.index t a * S1024x2048.size a ≤ (i a).val
      ∧ (i a).val < win0_2.index t a * S1024x2048.size a + win0_2.xsize (grid0.coords t) a := by
  show i ∈ ((View.whole main_v4).slice (win0_2.rect t)).set ↔ _
  rw [View.set_slice_whole, Rect.mem_set_unit]
  exact Iff.rfl

/-- The written parts cover the result array. -/
theorem covered (i : S4096x50257.Idx) :
    ∃ t : Fin cfg0.N, (cfg0.win 2).flush t = true ∧ i ∈ ((cfg0.win 2).blk t).view.set := by
  have hi0 : (i 0).val < 4096 := (i 0).isLt
  have hi1 : (i 1).val < 50257 := (i 1).isLt
  obtain ⟨t, ht⟩ := idx_onto ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  obtain ⟨-, -, -, -, x0, x1⟩ := idx_facts t
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + win0_2.xsize (grid0.coords t) (0 : Fin 2)
    rw [x0]; omega
  | ⟨1, _⟩ =>
    show win0_2.index t (1 : Fin 2) * 2048 ≤ (i 1).val ∧ (i 1).val < win0_2.index t (1 : Fin 2) * 2048 + win0_2.xsize (grid0.coords t) (1 : Fin 2)
    rw [x1]; omega

/-- THE RESULT ARRAY after the run: the whole product of the two arrays the region finds. -/
theorem final (c : Dev nD) : (dats m 0 c).arrAt 2 cfg0.N = prod (V m c main_v2) (V m c main_v3) :=
  (dats m 0 c).arrAt_eq_of_cover 2 _ (fun t _ => flushed_eq m c t) covered

/-- The run re-posted: the result array at the product, the three argument arrays unchanged. -/
theorem run : θ_run defs (onTc (τ := τ) (main (F := Ideal))) ⟨m, fun _ => 0, ρ⟩ fun r => ∀ c : Dev nD,
      r.2.mem ((c.tc : Thread nD τ).loc main_v4) = prod (V m c main_v2) (V m c main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Val

end
-- ==== Proof.KernelHost.lean ====
/-
  The two arrays the kernel's region finds, as functions of the arguments. Before the region @main gathers the rows
  of the embedding table at the (wrapped and range-checked) context indices, sums each bag of 8 rows, and converts
  the sums and the projection matrix to the narrower float format — at the ideal instance a change of format is the
  identity, so the region's left array is the bag sums and its right array is the projection matrix itself.
-/
import proofs.«106350_j27264452395031_1_alg».proof.Proof.Gen.KernelIdeal.Frame
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]

/-- The embedding bag: an index below zero is wrapped by the table's height; a wrapped index outside the table
    selects the not-a-number filler instead of a gathered row; the 8 rows of each bag are summed from zero. -/
def wordEmb (idx : (⟨S4096x8, .i32⟩ : BufTy).Contents (Elt F)) (W : (⟨S50257x128, .f32⟩ : BufTy).Contents (Elt F)) :
    (⟨S4096x128, .f32⟩ : BufTy).Contents (Elt F) :=
  let wrapped : (⟨S4096x8x1, .i32⟩ : BufTy).Contents (Elt F) :=
    broadcastInDim S4096x8x1 ![0, 1] bcast_S4096x8_S4096x8x1_0_1
      (select (cmpi .slt idx (broadcastInDim S4096x8 ![] bcast_S_S4096x8 (constantI S_ 32 0#32)))
        (addi idx (broadcastInDim S4096x8 ![] bcast_S_S4096x8 (constantI S_ 32 50257#32))) idx)
  let inRange : (⟨S4096x8, .i1⟩ : BufTy).Contents (Elt F) :=
    Host.reduce IntOp.andi
      (andi (cmpi .sge wrapped (broadcastInDim S4096x8x1 ![] bcast_S_S4096x8x1 (constantI S_ 32 0#32)))
        (cmpi .sle wrapped (broadcastInDim S4096x8x1 ![0, 1, 2] bcast_S1x1x1_S4096x8x1_0_1_2
          (broadcastInDim S1x1x1 ![2] bcast_S1_S1x1x1_2 (constantI S1 32 50256#32)))))
      (constantI S_ 1 1#1) reducesTo_S4096x8x1_S4096x8_d2 h_S_
  Host.reduceAdd
    (select (broadcastInDim S4096x8x128 ![0, 1] bcast_S4096x8_S4096x8x128_0_1 inRange)
      (Host.gather gather_S50257x128_S4096x8x1_S4096x8x128_2_0_n_n_0_2_1128 W wrapped)
      (broadcastInDim S4096x8x128 ![] bcast_S_S4096x8x128 (constant (F := F) S_ .f32 0x7FC00000#32)))
    (constant (F := F) S_ .f32 0x00000000#32) reducesTo_S4096x8x128_S4096x128_d1 h_S_

variable (m : (ℓ : Loc nD τ sig) → Buf (Elt F) ℓ)

/-- The region's left array: the bag sums, converted. -/
theorem V_left (c : Dev nD) : (V m c main_v2 : S4096x128.Idx → Elt F .bf16)
    = truncf .bf16 (wordEmb (m ((c.tc : Thread nD τ).loc main_arg0)) (m ((c.tc : Thread nD τ).loc main_arg1))) bitsLt_bf16_f32 := by
  dsimp only [V]
  simp only [hostOps0, hostOps0_1, List.flatten_cons, List.flatten_nil, List.append_nil, List.cons_append, List.nil_append]
  after_results_simp
  simp only [cast_eq]
  rfl

/-- The region's right array: the projection matrix, converted. -/
theorem V_right (c : Dev nD) : (V m c main_v3 : S128x50257.Idx → Elt F .bf16)
    = truncf .bf16 (m ((c.tc : Thread nD τ).loc main_arg2)) bitsLt_bf16_f32 := by
  dsimp only [V]
  simp only [hostOps0, hostOps0_1, List.flatten_cons, List.flatten_nil, List.append_nil, List.cons_append, List.nil_append]
  after_results

end Cert.KernelIdeal.Host

end
-- ==== Proof.RefRun.lean ====
import proofs.«106350_j27264452395031_1_alg».proof.Proof.Gen.ReferenceIdeal
import Idealize.ShloMosaic.Lib.StableHlo.Run

/-!
# The reference's run

The reference computes `out = (Σ_k W_proj[idx[·, k], ·]) · W_pred`: `jnp.take` along axis 0 of the
projection table (a negative index wrapped once by the table's height, an index still out of range
answered by NaN rows), the sum over the context axis, and one `dot_general` with the prediction
matrix. Its @main is a straight line of twenty-six tensor operations — the twenty-three of `take`
(one of them `where`'s select), the zero, the sum, the product — and no kernel, so every weakly
fair execution terminates with each buffer at the operations' fold over the launch contents.
Below: the line as a list, the fold read at the product's buffer and at the three arguments, and
the embedding-bag part of the composed term under a name of its own (`wordEmb`).
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The embedding-bag chain: take the rows of W at the (wrapped, range-checked) indices, sum over the context axis.
    An index `i < 0` is read as `i + 50257`; the row taken is the table's at that index (the gather clamps it
    into range); where the wrapped index is outside `[0, 50256]` the whole row is replaced by NaN; the eight
    rows of each context are then summed from zero. -/
def wordEmb (idx : (⟨S4096x8, .i32⟩ : BufTy).Contents (Elt F)) (W : (⟨S50257x128, .f32⟩ : BufTy).Contents (Elt F)) :
    (⟨S4096x128, .f32⟩ : BufTy).Contents (Elt F) :=
  Host.reduceAdd (F := F)
    (select
      (broadcastInDim S4096x8x128 ![0, 1] bcast_S4096x8_S4096x8x128_0_1
        (Host.reduce IntOp.andi
          (andi
            (cmpi .sge
              (broadcastInDim S4096x8x1 ![0, 1] bcast_S4096x8_S4096x8x1_0_1
          (select (cmpi .slt idx (broadcastInDim S4096x8 ![] bcast_S_S4096x8 (constantI S_ 32 0#32)))
            (addi idx (broadcastInDim S4096x8 ![] bcast_S_S4096x8 (constantI S_ 32 50257#32))) idx))
              (broadcastInDim S4096x8x1 ![] bcast_S_S4096x8x1 (constantI S_ 32 0#32)))
            (cmpi .sle
              (broadcastInDim S4096x8x1 ![0, 1] bcast_S4096x8_S4096x8x1_0_1
          (select (cmpi .slt idx (broadcastInDim S4096x8 ![] bcast_S_S4096x8 (constantI S_ 32 0#32)))
            (addi idx (broadcastInDim S4096x8 ![] bcast_S_S4096x8 (constantI S_ 32 50257#32))) idx))
              (broadcastInDim S4096x8x1 ![0, 1, 2] bcast_S1x1x1_S4096x8x1_0_1_2
                (broadcastInDim S1x1x1 ![2] bcast_S1_S1x1x1_2 (constantI S1 32 50256#32)))))
          (constantI S_ 1 1#1) reducesTo_S4096x8x1_S4096x8_d2 h_S_))
      (Host.gather gather_S50257x128_S4096x8x1_S4096x8x128_2_0_n_n_0_2_1128 W
        (broadcastInDim S4096x8x1 ![0, 1] bcast_S4096x8_S4096x8x1_0_1
          (select (cmpi .slt idx (broadcastInDim S4096x8 ![] bcast_S_S4096x8 (constantI S_ 32 0#32)))
            (addi idx (broadcastInDim S4096x8 ![] bcast_S_S4096x8 (constantI S_ 32 50257#32))) idx)))
      (broadcastInDim S4096x8x128 ![] bcast_S_S4096x8x128 (constant (F := F) S_ .f32 0x7FC00000#32)))
    (constant (F := F) S_ .f32 0x00000000#32) reducesTo_S4096x8x128_S4096x128_d1 h_S_

/-- The contents of a tensor value of shape `s` and element type `e`. -/
local notation "𝕋[" s ", " e "]" => BufTy.Contents (Elt F) (BufTy.mk s e)

/-- @main's twenty-six operations in order, the calls unfolded: `take`'s twenty-three over the buffers of
    @main's one call of it (the seventh is `where`'s select, into that call's own buffer), then @main's zero,
    its sum over the context axis and its product. -/
abbrev ops : List (HloOp τ sig (Elt F)) :=
  [ nullary main_call0_c (constantI S_ 32 0#32),
    unary main_call0_c main_call0_v0 (broadcastInDim S4096x8 ![] bcast_S_S4096x8 : 𝕋[S_, .i32] → 𝕋[S4096x8, .i32]),
    binary main_arg0 main_call0_v0 main_call0_v1 (cmpi .slt : 𝕋[S4096x8, .i32] → 𝕋[S4096x8, .i32] → 𝕋[S4096x8, .i1]),
    nullary main_call0_c_0 (constantI S_ 32 50257#32),
    unary main_call0_c_0 main_call0_v2 (broadcastInDim S4096x8 ![] bcast_S_S4096x8 : 𝕋[S_, .i32] → 𝕋[S4096x8, .i32]),
    binary main_arg0 main_call0_v2 main_call0_v3 (addi : 𝕋[S4096x8, .i32] → 𝕋[S4096x8, .i32] → 𝕋[S4096x8, .i32]),
    ternary main_call0_v1 main_call0_v3 main_arg0 main_call0_v4 (select : 𝕋[S4096x8, .i1] → 𝕋[S4096x8, .i32] → 𝕋[S4096x8, .i32] → 𝕋[S4096x8, .i32]),
    unary main_call0_v4 main_call0_v5 (broadcastInDim S4096x8x1 ![0, 1] bcast_S4096x8_S4096x8x1_0_1 : 𝕋[S4096x8, .i32] → 𝕋[S4096x8x1, .i32]),
    nullary main_call0_c_1 (constantI S1 32 50256#32),
    nullary main_call0_c_2 (constantI S_ 32 0#32),
    unary main_call0_c_2 main_call0_v6 (broadcastInDim S4096x8x1 ![] bcast_S_S4096x8x1 : 𝕋[S_, .i32] → 𝕋[S4096x8x1, .i32]),
    binary main_call0_v5 main_call0_v6 main_call0_v7 (cmpi .sge : 𝕋[S4096x8x1, .i32] → 𝕋[S4096x8x1, .i32] → 𝕋[S4096x8x1, .i1]),
    unary main_call0_c_1 main_call0_v8 (broadcastInDim S1x1x1 ![2] bcast_S1_S1x1x1_2 : 𝕋[S1, .i32] → 𝕋[S1x1x1, .i32]),
    unary main_call0_v8 main_call0_v9 (broadcastInDim S4096x8x1 ![0, 1, 2] bcast_S1x1x1_S4096x8x1_0_1_2 : 𝕋[S1x1x1, .i32] → 𝕋[S4096x8x1, .i32]),
    binary main_call0_v5 main_call0_v9 main_call0_v10 (cmpi .sle : 𝕋[S4096x8x1, .i32] → 𝕋[S4096x8x1, .i32] → 𝕋[S4096x8x1, .i1]),
    binary main_call0_v7 main_call0_v10 main_call0_v11 (andi : 𝕋[S4096x8x1, .i1] → 𝕋[S4096x8x1, .i1] → 𝕋[S4096x8x1, .i1]),
    nullary main_call0_c_3 (constantI S_ 1 1#1),
    binary main_call0_v11 main_call0_c_3 main_call0_v12 ((fun x v => Host.reduce IntOp.andi x v reducesTo_S4096x8x1_S4096x8_d2 h_S_) : 𝕋[S4096x8x1, .i1] → 𝕋[S_, .i1] → 𝕋[S4096x8, .i1]),
    binary main_arg1 main_call0_v5 main_call0_v13 ((fun x i => Host.gather gather_S50257x128_S4096x8x1_S4096x8x128_2_0_n_n_0_2_1128 x i) : 𝕋[S50257x128, .f32] → 𝕋[S4096x8x1, .i32] → 𝕋[S4096x8x128, .f32]),
    unary main_call0_v12 main_call0_v14 (broadcastInDim S4096x8x128 ![0, 1] bcast_S4096x8_S4096x8x128_0_1 : 𝕋[S4096x8, .i1] → 𝕋[S4096x8x128, .i1]),
    nullary main_call0_cst (constant S_ .f32 0x7FC00000#32),
    unary main_call0_cst main_call0_v15 (broadcastInDim S4096x8x128 ![] bcast_S_S4096x8x128 : 𝕋[S_, .f32] → 𝕋[S4096x8x128, .f32]),
    ternary main_call0_v14 main_call0_v13 main_call0_v15 main_v0 (select : 𝕋[S4096x8x128, .i1] → 𝕋[S4096x8x128, .f32] → 𝕋[S4096x8x128, .f32] → 𝕋[S4096x8x128, .f32]),
    nullary main_cst (constant S_ .f32 0x00000000#32),
    binary main_v0 main_cst main_v1 ((fun x v => Host.reduceAdd x v reducesTo_S4096x8x128_S4096x128_d1 h_S_) : 𝕋[S4096x8x128, .f32] → 𝕋[S_, .f32] → 𝕋[S4096x128, .f32]),
    binary main_v1 main_arg2 main_v2 ((fun l r => Host.dotGeneral dot_S4096x128_S128x50257_S4096x50257_1_0_0_1_n_n none l r) : 𝕋[S4096x128, .f32] → 𝕋[S128x50257, .f32] → 𝕋[S4096x50257, .f32]) ]

-- twenty-six binds re-associated: the rewrite under the chain recurses once per statement
attribute [local irreducible] Host.reduce Host.gather Host.reduceAdd in
set_option maxRecDepth 1024 in
/-- @main is that straight line: `take`'s and `where`'s definitions unfolded at their calls and the call's
    record at its fields, the sequencing re-associated to the right; each operation of a callee, stated over
    references that carry their tensor type, is the operation at the literal buffer — the transport of its
    function along the type equation is the identity there. -/
theorem main_eq (c : Dev nD) : main (F := F) c = seq ops := by
  simp only [main, fn_take.body, fn_where.body, seq, bind_assoc, pure_bind]
  rfl

/-- The signature scopes no buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., binary_bufs_sub ..⟩

/-! ## The fold, read at the result and at the arguments -/

/-- At the product's buffer the fold is the product of the embedding-bag term with the prediction matrix:
    each operation's result read at its own buffer is its function of its operands' contents, at any other
    buffer what was there; composed, that is `wordEmb`'s body under the `dot_general`. -/
theorem out_eq (V : Valuation τ sig (Elt F)) :
    after ops V (main_v2 : DevRef τ sig)
      = Host.dotGeneral dot_S4096x128_S128x50257_S4096x50257_1_0_0_1_n_n none
          (wordEmb (V (main_arg0 : DevRef τ sig)) (V (main_arg1 : DevRef τ sig))) (V (main_arg2 : DevRef τ sig)) := by
  after_results
  rfl

/-- No operation writes an argument's buffer. -/
theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

theorem arg2_eq (V : Valuation τ sig (Elt F)) :
    after ops V (main_arg2 : DevRef τ sig) = V (main_arg2 : DevRef τ sig) := by
  after_results

/-! ## The run -/

/-- On every device, for any float values, from any memory with zero counters: every weakly fair execution of
    @main terminates with the result buffer at `wordEmb idx W · W_pred` of the arguments' launch contents and
    the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v2) = Host.dotGeneral dot_S4096x128_S128x50257_S4096x50257_1_0_0_1_n_n none (wordEmb (m ((c.tc : Thread nD τ).loc main_arg0)) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v2).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.HandRun

end
-- ==== Proof.RefDot.lean ====
/-
  The reference's matrix product read at an entry, at the ideal instance: entry (r, q) of the product of a
  4096 × 128 array with a 128 × 50257 array is the sum over the 128 contraction positions k of left(r, k) · right(k, q).
  The dimension numbers contract the left operand's columns with the right operand's rows; the four lemmas say
  which coordinate of the result or of the contraction position each operand coordinate reads.
-/
import proofs.«106350_j27264452395031_1_alg».proof.Proof.Gen.ReferenceIdeal
import Idealize.ShloMosaic.PureOps.Ideal.Laws
import Idealize.ShloMosaic.Lib.ValueIdx

noncomputable section

namespace Cert.ReferenceIdeal.Dot

open Cert.ReferenceIdeal Cert.ReferenceIdeal.Gen
open Idealize.ShloMosaic Idealize.ShloMosaic.ValueIdx

/-- The reference's dimension numbers: rows × contraction times contraction × columns. -/
abbrev dotR : DotDims S4096x128 S128x50257 S4096x50257 := dot_S4096x128_S128x50257_S4096x50257_1_0_0_1_n_n

/-- The left operand is read in the result's row … -/
theorem lhs_0 (i : S4096x50257.Idx) (q : dotR.contr.Idx) : (dotR.lhsIdx i q 0).val = (i 0).val := by
  unfold DotDims.lhsIdx
  rw [dif_neg (show ¬(0 : Fin S4096x128.rank) ∈ dotR.lhsBatch by decide), dif_pos (show (0 : Fin S4096x128.rank) ∈ dotR.lhsNonContracting by decide)]
  rfl
/-- … at the contraction position; -/
theorem lhs_1 (i : S4096x50257.Idx) (q : dotR.contr.Idx) : (dotR.lhsIdx i q 1).val = (q ⟨0, by decide⟩).val :=
  dotR.lhsIdx_val_of_single rfl i q
/-- the right operand at the contraction position … -/
theorem rhs_0 (i : S4096x50257.Idx) (q : dotR.contr.Idx) : (dotR.rhsIdx i q 0).val = (q ⟨0, by decide⟩).val :=
  dotR.rhsIdx_val_of_single rfl i q
/-- … in the result's column. -/
theorem rhs_1 (i : S4096x50257.Idx) (q : dotR.contr.Idx) : (dotR.rhsIdx i q 1).val = (i 1).val := by
  unfold DotDims.rhsIdx
  rw [dif_neg (show ¬(1 : Fin S128x50257.rank) ∈ dotR.rhsBatch by decide), dif_pos (show (1 : Fin S128x50257.rank) ∈ dotR.rhsNonContracting by decide)]
  rfl

/-- The host's product at an entry is the plain sum of products over the contraction positions. -/
theorem dot_apply (l : FVec Idealize.ShloMosaic.Ideal S4096x128 .f32) (r : FVec Idealize.ShloMosaic.Ideal S128x50257 .f32) (i : S4096x50257.Idx) :
    Host.dotGeneral dotR none l r i
      = ∑ k : Fin 128, l (ix2 ⟨(i 0).val, idx2_lt0 i⟩ k) * r (ix2 k ⟨(i 1).val, idx2_lt1 i⟩) := by
  simp only [Host.dotGeneral]
  rw [Ideal.dotGeneral_apply, ← Equiv.sum_comp (contrEquiv1 dotR 128 rfl rfl).symm]
  refine Finset.sum_congr rfl fun k _ => ?_
  have hk := contrEquiv1_symm_val dotR 128 rfl rfl k
  have el : dotR.lhsIdx i ((contrEquiv1 dotR 128 rfl rfl).symm k) = ix2 ⟨(i 0).val, idx2_lt0 i⟩ k := funext fun a => Fin.ext (by
    match a with
    | ⟨0, _⟩ => exact lhs_0 _ _
    | ⟨1, _⟩ => exact (lhs_1 _ _).trans hk)
  have er : dotR.rhsIdx i ((contrEquiv1 dotR 128 rfl rfl).symm k) = ix2 k ⟨(i 1).val, idx2_lt1 i⟩ := funext fun a => Fin.ext (by
    match a with
    | ⟨0, _⟩ => exact (rhs_0 _ _).trans hk
    | ⟨1, _⟩ => exact rhs_1 _ _)
  rw [el, er]

end Cert.ReferenceIdeal.Dot

end
-- ==== Proof.Bridge.lean ====
/-
  The two programs compute one function. Both gather the embedding rows and sum each bag by the same chain of host
  operations, so the bag sums are the same array `E`. The kernel then converts `E` and the projection matrix `P`
  to a narrower float format — the identity at the ideal instance — and its blocks assemble to the array whose
  entry (r, q) is ∑ₖ E(r, k) · P(k, q); the reference's matrix product has that same sum at entry (r, q). No law of
  the extended reals is needed beyond reading both products as the same sum, so finiteness of the inputs is not used.
-/
import proofs.«106350_j27264452395031_1_alg».proof.Proof.KernelFinal
import proofs.«106350_j27264452395031_1_alg».proof.Proof.KernelHost
import proofs.«106350_j27264452395031_1_alg».proof.Proof.RefRun
import proofs.«106350_j27264452395031_1_alg».proof.Proof.RefDot

set_option maxRecDepth 16384

noncomputable section

namespace Cert.Bridge

open Idealize.ShloMosaic Idealize.ShloMosaic.ValueIdx

/-- The kernel's program and the reference apply the same embedding-bag chain: the two terms differ only in which
    program's names spell the shapes and dimension records, which denote the same shapes and records. -/
theorem wordEmb_eq (idx : (⟨Cert.KernelIdeal.S4096x8, .i32⟩ : BufTy).Contents (Elt Idealize.ShloMosaic.Ideal))
    (W : (⟨Cert.KernelIdeal.S50257x128, .f32⟩ : BufTy).Contents (Elt Idealize.ShloMosaic.Ideal)) :
    Cert.KernelIdeal.Host.wordEmb (F := Idealize.ShloMosaic.Ideal) idx W = Cert.ReferenceIdeal.HandRun.wordEmb (F := Idealize.ShloMosaic.Ideal) idx W := rfl

/-- The kernel's assembled product of the converted operands is the reference's product, entry by entry. -/
theorem result_eq (idx : (⟨Cert.KernelIdeal.S4096x8, .i32⟩ : BufTy).Contents (Elt Idealize.ShloMosaic.Ideal))
    (W : (⟨Cert.KernelIdeal.S50257x128, .f32⟩ : BufTy).Contents (Elt Idealize.ShloMosaic.Ideal))
    (P : (⟨Cert.KernelIdeal.S128x50257, .f32⟩ : BufTy).Contents (Elt Idealize.ShloMosaic.Ideal)) :
    Cert.KernelIdeal.Val.prod
        (truncf (F := Idealize.ShloMosaic.Ideal) .bf16 (Cert.KernelIdeal.Host.wordEmb (F := Idealize.ShloMosaic.Ideal) idx W) Cert.KernelIdeal.Gen.bitsLt_bf16_f32)
        (truncf (F := Idealize.ShloMosaic.Ideal) .bf16 P Cert.KernelIdeal.Gen.bitsLt_bf16_f32)
      = Host.dotGeneral (F := Idealize.ShloMosaic.Ideal) (φ₁ := .f32) (φ₂ := .f32) Cert.ReferenceIdeal.Dot.dotR none (Cert.ReferenceIdeal.HandRun.wordEmb (F := Idealize.ShloMosaic.Ideal) idx W) P := by
  funext i
  rw [Cert.ReferenceIdeal.Dot.dot_apply, ← wordEmb_eq]
  rfl

end Cert.Bridge

end
-- ==== Proof.lean ====
/-
  The certificate's claim. The kernel multiplies the embedding-bag sums by the projection matrix in a 4 × 25 grid of
  blocks; the reference multiplies them whole.

  * The word-level kernel and its idealization terminate, fault nowhere and leave their arguments unchanged: the
    body only loads its three staging buffers whole and stores one of them whole, so nothing needs to be known of
    what the buffers hold — in particular nothing of the columns past the array's end in the last column block.
  * The reference is a straight line of host operations: it terminates with each buffer at the operations'
    composed term, its arguments unchanged.
  * The idealization rewrote no operation, so there is nothing to preserve.
  * At the ideal instance the kernel's result array is, entry by entry, ∑ₖ E(r, k) · P(k, q) with E the bag sums
    and P the projection matrix, and so is the reference's product.
-/
import proofs.«106350_j27264452395031_1_alg».proof.Defs
import proofs.«106350_j27264452395031_1_alg».proof.Proof.Gen.Kernel
import proofs.«106350_j27264452395031_1_alg».proof.Proof.Gen.KernelIdeal
import proofs.«106350_j27264452395031_1_alg».proof.Proof.Gen.ReferenceIdeal
import proofs.«106350_j27264452395031_1_alg».proof.Proof.Gen.Pre_finite_inputs
import proofs.«106350_j27264452395031_1_alg».proof.Proof.KernelFrame
import proofs.«106350_j27264452395031_1_alg».proof.Proof.KernelIdealFrame
import proofs.«106350_j27264452395031_1_alg».proof.Proof.Bridge

noncomputable section

namespace Cert.Proof

open Idealize.ShloMosaic Idealize.SL.Sem

/-- The word-level kernel's frame. -/
theorem frame_kernel : Cert.frame_Kernel (hKernel := Cert.Kernel.Gen.facts) (hPre_finite_inputs := Cert.Pre_finite_inputs.Gen.facts) :=
  fun m g _ => Cert.Kernel.HandFrame.frame m g

/-- The idealized kernel's frame. -/
theorem frame_kernelIdeal : Cert.frame_KernelIdeal (hKernelIdeal := Cert.KernelIdeal.Gen.facts) (hPre_finite_inputs := Cert.Pre_finite_inputs.Gen.facts) :=
  fun m g _ => Cert.KernelIdeal.HandFrame.frame m g

/-- The reference's frame: its run with the result dropped. -/
theorem frame_reference : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.ReferenceIdeal.HandRun.run m g)

/-- From memories that agree on the arguments both idealized programs end with the same result array: the kernel's
    run ends at the assembled product of the arrays its region finds, which are the converted bag sums and the
    converted projection matrix, and the reference's run ends at its product of the same bag sums and matrix. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' _ hagree
  refine ⟨fun c => Cert.KernelIdeal.Val.prod (Cert.KernelIdeal.Gen.V m c Cert.KernelIdeal.main_v2) (Cert.KernelIdeal.Gen.V m c Cert.KernelIdeal.main_v3),
    Cert.KernelIdeal.Val.run m g, ?_⟩
  refine (θ_run Cert.ReferenceIdeal.defs _ _).mono (fun _ h c => ⟨(h c).1.trans ?_, (h c).2⟩) (Cert.ReferenceIdeal.HandRun.run m' g')
  rw [(hagree c).1, (hagree c).2.1, (hagree c).2.2]
  show _ = Cert.KernelIdeal.Val.prod (Cert.KernelIdeal.Gen.V m c Cert.KernelIdeal.main_v2) (Cert.KernelIdeal.Gen.V m c Cert.KernelIdeal.main_v3)
  rw [Cert.KernelIdeal.Host.V_left, Cert.KernelIdeal.Host.V_right]
  exact (Cert.Bridge.result_eq _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
